-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64 : Shape := ⟨1, ![64]⟩
abbrev S32x1024x1024 : Shape := ⟨3, ![32, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x1024x1024 .f32) (main_arg1 : IVec S64 32) (main_arg2 : FVec F S32x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S32x1024x1024 .f32 := Host.absf main_arg2
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_c_2 : IVec S_ 32 := constantI S_ 32 0#32
  let main_v9 : IVec S64 32 := broadcastInDim S64 ![] bcast_S_S64 main_c_2
  let main_v10 : IVec S64 1 := cmpi .sge main_arg1 main_v9
  let main_c_3 : IVec S_ 32 := constantI S_ 32 32#32
  let main_v11 : IVec S64 32 := broadcastInDim S64 ![] bcast_S_S64 main_c_3
  let main_v12 : IVec S64 1 := cmpi .slt main_arg1 main_v11
  let main_v13 : IVec S64 1 := andi main_v10 main_v12
  let main_c_4 : IVec S_ 1 := constantI S_ 1 1#1
  let main_v14 : IVec S_ 1 := (fun x v => Host.reduce IntOp.andi x v reducesTo_S64_S_d0 h_S_) main_v13 main_c_4
  let main_v15 : IVec S_ 1 := andi main_v8 main_v14
  main_v15
-- ==== Kernel.lean ====
abbrev S64x1024x1024 : Shape := ⟨3, ![64, 1024, 1024]⟩
abbrev S64 : Shape := ⟨1, ![64]⟩
abbrev S32x1024x1024 : Shape := ⟨3, ![32, 1024, 1024]⟩
abbrev S_ : Shape := ⟨0, ![]⟩
abbrev S64x1 : Shape := ⟨2, ![64, 1]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 22
  | .vmem => 6
  | .smem => 2
  | _ => 0

abbrev bufTy : (tb : Table) → Fin (tcTables nBuf tb) → BufTy
  | .hbm, ⟨0, _⟩ => ⟨S64x1024x1024, .f32⟩
  | .hbm, ⟨1, _⟩ => ⟨S64, .i32⟩
  | .hbm, ⟨2, _⟩ => ⟨S32x1024x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .smem, ⟨0, _⟩ => ⟨S64, .i32⟩
  | .local _ .smem, ⟨1, _⟩ => ⟨S64, .i32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1_0 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v9 : Ref sig .tc := ⟨.hbm, 21, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  gather_S64_S64x1_S64_n_0_n_n_0_1_1_wf : GatherDims.WF S64 S64x1 S64 [] [0] [] [0] [] 1 ![1]
  dot_S1024x1024_S1024x1024_S1024x1024_0_0_1_1_n_n_wf : DotDims.WF S1024x1024 S1024x1024 S1024x1024 [0] [0] [1] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v9) S1x1024x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x1024.size a ≤ S64x1024x1024.size a), EltTy.bits .f32 = 32 ∨ (Rect.block (s := S64x1024x1024) S1x1024x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S32x1024x1024.size a), EltTy.bits .f32 = 32 ∨ (Rect.block (s := S32x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1024x1024.size a ≤ S64x1024x1024.size a), EltTy.bits .f32 = 32 ∨ (Rect.block (s := S64x1024x1024) S1x1024x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x1024x1024 : Shape := ⟨3, ![64, 1024, 1024]⟩
abbrev S64 : Shape := ⟨1, ![64]⟩
abbrev S32x1024x1024 : Shape := ⟨3, ![32, 1024, 1024]⟩
abbrev S_ : Shape := ⟨0, ![]⟩
abbrev S64x1 : Shape := ⟨2, ![64, 1]⟩

abbrev nBuf : Space → Nat
  | .hbm => 13
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64, .i32⟩
  | .hbm, ⟨2, _⟩ => ⟨S32x1024x1024, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S64x1024x1024, .f32⟩
  | .hbm, ⟨12, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  gather_S32x1024x1024_S64x1_S64x1024x1024_12_0_n_n_0_1_110241024_wf : GatherDims.WF S32x1024x1024 S64x1 S64x1024x1024 [1, 2] [0] [] [0] [] 1 ![1, 1024, 1024]
  dot_S64x1024x1024_S64x1024x1024_S64x1024x1024_1_1_2_2_0_0_wf : DotDims.WF S64x1024x1024 S64x1024x1024 S64x1024x1024 [1] [1] [2] [2] [0] [0]

variable [Facts₀]

def gather_S32x1024x1024_S64x1_S64x1024x1024_12_0_n_n_0_1_110241024 : GatherDims S32x1024x1024 S64x1 S64x1024x1024 where
  offsetDims := [1, 2]
  collapsedSliceDims := [0]
  operandBatchingDims := []
  startIndicesBatchingDims := []
  startIndexMap := [0]
  indexVectorDim := 1
  sliceSizes := ![1, 1024, 1024]
  wf := gather_S32x1024x1024_S64x1_S64x1024x1024_12_0_n_n_0_1_110241024_wf
def dot_S64x1024x1024_S64x1024x1024_S64x1024x1024_1_1_2_2_0_0 : DotDims S64x1024x1024 S64x1024x1024 S64x1024x1024 where
  lhsContracting := [1]
  rhsContracting := [1]
  lhsNonContracting := [2]
  rhsNonContracting := [2]
  lhsBatch := [0]
  rhsBatch := [0]
  wf := dot_S64x1024x1024_S64x1024x1024_S64x1024x1024_1_1_2_2_0_0_wf

class Facts : Prop extends Facts₀ where

variable [Facts]
-- ==== Proof.SortedOrder.lean ====
/-
  Facts about words and positions that the subject-sorted schedule rests on, with no program in sight.

  * Clamping a 32-bit word into 0 … 31 (signed `max` with 0, then signed `min` with 31) always lands below 32, and
    leaves a word that is already below 32 alone.
  * A stable sort of 64 (key, position) pairs visits the positions in an ORDER `order cmp x : Fin 64 → Fin 64` that is
    a bijection of the positions, whatever the keys and the comparator; the sorted position column, at place `t`, is
    the word `order cmp x t`.
  * Taking a 64-entry table at that position column (a negative-index wrap that is never taken, then a gather whose
    start index is clamped into 0 … 63) reads the table at `order cmp x t`.
-/
import Idealize.ShloMosaic.Lib.SortFacts
import Idealize.ShloMosaic.Lib.StableHlo.Predicate

namespace Cert.SubjectOrder

open Idealize.ShloMosaic Idealize.ShloMosaic.StableHlo.Predicate

abbrev V64 : Shape := ⟨1, ![64]⟩
abbrev C64 : Shape := ⟨2, ![64, 1]⟩
abbrev Sc : Shape := ⟨0, ![]⟩

/-! ## The clamp into 0 … 31 -/

/-- `min 31 (max 0 w)`, both signed. -/
def clampW (w : BitVec 32) : BitVec 32 := IntOp.minsi 31#32 (IntOp.maxsi 0#32 w)

/-- The clamp is below 32 whatever the word. -/
theorem clampW_lt (w : BitVec 32) : (clampW w).toNat < 32 := by
  unfold clampW IntOp.minsi IntOp.maxsi
  have hw := w.isLt
  have hwi := BitVec.toInt_eq_toNat_cond w
  have e31 : (31#32 : BitVec 32).toInt = 31 := by decide
  have e0 : (0#32 : BitVec 32).toInt = 0 := by decide
  by_cases h : w.slt 0#32 = true
  · rw [if_pos h]; decide
  · rw [if_neg h]
    by_cases h2 : (31#32 : BitVec 32).slt w = true
    · rw [if_pos h2]; decide
    · rw [if_neg h2]
      simp only [BitVec.slt, e31, e0, decide_eq_true_eq] at h h2
      omega

/-- A word already in 0 … 31 is its own clamp. -/
theorem clampW_of_lt (w : BitVec 32) (hw : w.toNat < 32) : clampW w = w := by
  unfold clampW IntOp.minsi IntOp.maxsi
  have hwi := BitVec.toInt_eq_toNat_cond w
  have e31 : (31#32 : BitVec 32).toInt = 31 := by decide
  have e0 : (0#32 : BitVec 32).toInt = 0 := by decide
  have h : ¬ (w.slt 0#32 = true) := by
    simp only [BitVec.slt, e0, decide_eq_true_eq]; omega
  rw [if_neg h]
  have h2 : ¬ ((31#32 : BitVec 32).slt w = true) := by
    simp only [BitVec.slt, e31, decide_eq_true_eq]; omega
  rw [if_neg h2]

/-! ## The order a stable sort of (key, position) pairs visits the positions in -/

/-- Place `t` of the sorted sequence holds the pair that stood at position `order cmp x t`. -/
def order (cmp : BitVec 32 × BitVec 32 → BitVec 32 × BitVec 32 → BitVec 1) (x : IVec V64 32) : Fin 64 → Fin 64 :=
  sortedFrom (fun k k' => cmp (x (Shape.Idx.ofFin k), iotaInDim V64 32 0 (Shape.Idx.ofFin k))
    (x (Shape.Idx.ofFin k'), iotaInDim V64 32 0 (Shape.Idx.ofFin k')) == 1#1)

theorem order_injective (cmp : BitVec 32 × BitVec 32 → BitVec 32 × BitVec 32 → BitVec 1) (x : IVec V64 32) :
    Function.Injective (order cmp x) := sortedFrom_injective _

theorem order_surjective (cmp : BitVec 32 × BitVec 32 → BitVec 32 × BitVec 32 → BitVec 1) (x : IVec V64 32) :
    Function.Surjective (order cmp x) := sortedFrom_surjective _

/-- A two-column stable sort of a vector, at any length: the second column reads, at place `j`, its entry at the position
    the sort visits there. (Stated at a length that is a variable, so that no sorting is ever carried out.) -/
theorem sort2_snd_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The position column carried through the sort reads, at place `j`, the word of the position visited there. -/
theorem sort2_snd (cmp : BitVec 32 × BitVec 32 → BitVec 32 × BitVec 32 → BitVec 1) (x : IVec V64 32) (j : V64.Idx) :
    (Host.sort2 V64 0 cmp x (iotaInDim V64 32 0)).2 j = BitVec.ofNat 32 (order cmp x (j 0)).val :=
  (sort2_snd_rank1 cmp x (iotaInDim V64 32 0) j).trans (iota_apply _)

/-! ## Taking a table at the sorted position column -/

/-- The wrap of negative indices (`p < 0 ? p + 64 : p`) at one entry. -/
theorem wrapped_at (h0 : Sc.BroadcastsInDim V64 ![]) (P : IVec V64 32) (j : V64.Idx) :
    select (cmpi .slt P (broadcastInDim V64 ![] h0 (constantI Sc 32 0#32)))
        (addi P (broadcastInDim V64 ![] h0 (constantI Sc 32 64#32))) P j
      = Scalar.select (IntOp.cmpi .slt (P j) 0#32) (IntOp.addi (P j) 64#32) (P j) := rfl

/-- A position word (a number below 64) is not negative: the wrap leaves it, and read signed it is the position. -/
theorem wrap_pos : ∀ k : Fin 64,
    (Scalar.select (IntOp.cmpi .slt (BitVec.ofNat 32 k.val) 0#32) (IntOp.addi (BitVec.ofNat 32 k.val) 64#32)
      (BitVec.ofNat 32 k.val)).toInt.toNat = k.val := by
  decide

/-- A take of a 64-entry table at a column of wrapped indices, at an entry whose index word is a position `k`, reads
    the table at `k` (the column is a variable here: nothing is sorted). -/
theorem take_wrapped (d : GatherDims V64 C64 V64) (hcoll : d.collapsedSliceDims = [0]) (hob : d.operandBatchingDims = [])
    (hsim : d.startIndexMap = [0]) (hivd : d.indexVectorDim = 1)
    (h1 : V64.BroadcastsInDim C64 ![0]) (h0 : Sc.BroadcastsInDim V64 ![])
    (P tab : IVec V64 32) (t k : Fin 64) (hP : P (Shape.Idx.ofFin t) = BitVec.ofNat 32 k.val) :
    Host.gather d tab (broadcastInDim C64 ![0] h1
        (select (cmpi .slt P (broadcastInDim V64 ![] h0 (constantI Sc 32 0#32)))
          (addi P (broadcastInDim V64 ![] h0 (constantI Sc 32 64#32))) P)) (Shape.Idx.ofFin t)
      = tab (Shape.Idx.ofFin k) := by
  rw [gather_take d hcoll hob hsim hivd tab _ t (by decide)]
  refine congrArg (fun k => tab (Shape.Idx.ofFin k)) (Fin.ext ?_)
  show min (BitVec.toInt _).toNat (64 - 1) = k.val
  rw [bcast_col1, wrapped_at, hP, wrap_pos k]
  omega

/-- THE TAKE at the sorted positions: entry `t` of `tab[perm]`, `perm` the position column of the sort by the keys `x`,
    is `tab` at the position the sort visits at place `t`. -/
theorem take_sorted (d : GatherDims V64 C64 V64) (hcoll : d.collapsedSliceDims = [0]) (hob : d.operandBatchingDims = [])
    (hsim : d.startIndexMap = [0]) (hivd : d.indexVectorDim = 1)
    (h1 : V64.BroadcastsInDim C64 ![0]) (h0 : Sc.BroadcastsInDim V64 ![])
    (cmp : BitVec 32 × BitVec 32 → BitVec 32 × BitVec 32 → BitVec 1) (x tab : IVec V64 32) (t : Fin 64) :
    Host.gather d tab (broadcastInDim C64 ![0] h1
        (select (cmpi .slt (Host.sort2 V64 0 cmp x (iotaInDim V64 32 0)).2 (broadcastInDim V64 ![] h0 (constantI Sc 32 0#32)))
          (addi (Host.sort2 V64 0 cmp x (iotaInDim V64 32 0)).2 (broadcastInDim V64 ![] h0 (constantI Sc 32 64#32)))
          (Host.sort2 V64 0 cmp x (iotaInDim V64 32 0)).2)) (Shape.Idx.ofFin t)
      = tab (Shape.Idx.ofFin (order cmp x t)) :=
  take_wrapped d hcoll hob hsim hivd h1 h0 _ tab t (order cmp x t)
    ((sort2_snd cmp x (Shape.Idx.ofFin t)).trans (by rw [Shape.Idx.ofFin_zero]))

end Cert.SubjectOrder
-- ==== Proof.KernelTables.lean ====
/-
  The two prefetched tables of `Kernel`'s pallas_call, read off the launch memory, and the pipeline's side condition on them.

  @main clamps the 64 subject ids into 0 … 31, sorts (clamped id, position) pairs stably by the id, and hands the
  pipeline the position column (table 0) and the clamped ids taken at that column (table 1). So, with `σ` the order in
  which the sort visits the positions (a bijection of the 64 positions): entry `t` of table 0 is the word `σ t`, and entry
  `t` of table 1 is the clamped id of position `σ t`. Every index map of the call reads one of the tables at the grid point
  and puts the word on the leading axis; `σ t < 64` and a clamped id is `< 32`, so every block lies inside its array
  whatever the ids are: the side condition holds of every launch memory.
-/
import proofs.«417826_j26645977104571_2_alg».proof.Proof.Gen.Kernel.Frame
import proofs.«417826_j26645977104571_2_alg».proof.Proof.SortedOrder
import Idealize.ShloMosaic.Lib.StableHlo.Run

set_option maxRecDepth 16384

noncomputable section

namespace Cert.Kernel.Tables

open Cert.Kernel Cert.Kernel.Gen Cert.SubjectOrder
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## What @main computes before the call -/

/-- The subject ids the program is launched with (it runs on one device). -/
abbrev subj : IVec S64 32 := m (((0 : Dev nD) : Thread nD τ).loc main_arg1)

/-- The ids clamped into 0 … 31. -/
def clipped : IVec S64 32 :=
  minsi (broadcastInDim S64 ![] bcast_S_S64 (constantI S_ 32 31#32))
    (maxsi (broadcastInDim S64 ![] bcast_S_S64 (constantI S_ 32 0#32)) (subj m))

theorem clipped_apply (j : S64.Idx) : clipped m j = clampW (subj m j) := rfl

/-- The position column of the stable sort of (clamped id, position) by the id. -/
def perm : IVec S64 32 := (Host.sort2 S64 0 comparator_i32_i32_d0 (clipped m) (iotaInDim S64 32 0)).2

/-- The clamped ids taken at the position column (negative positions wrapped: there are none). -/
def sortedSubj : IVec S64 32 :=
  Host.gather gather_S64_S64x1_S64_n_0_n_n_0_1_1 (clipped m)
    (broadcastInDim S64x1 ![0] bcast_S64_S64x1_0
      (select (cmpi .slt (perm m) (broadcastInDim S64 ![] bcast_S_S64 (constantI S_ 32 0#32)))
        (addi (perm m) (broadcastInDim S64 ![] bcast_S_S64 (constantI S_ 32 64#32))) (perm m)))

/-- The order in which the sort visits the 64 positions. -/
def σ : Fin 64 → Fin 64 := order comparator_i32_i32_d0 (clipped m)

theorem σ_injective : Function.Injective (σ m) := order_injective _ _
theorem σ_surjective : Function.Surjective (σ m) := order_surjective _ _

/-! ## The tables are those two columns -/

theorem tbl0_eq : tbl m 0 = perm m := by
  unfold tbl
  show V m 0 main_v1 = _
  unfold V
  simp only [hostOps0, hostOps0_1, hostOps0_2, hostOps0_3, List.flatten_cons, List.flatten_nil, List.append_nil, List.cons_append, List.nil_append]
  after_results
  unfold perm clipped
  rfl

set_option maxHeartbeats 2000000 in
theorem tbl1_eq : tbl m 1 = sortedSubj m := by
  unfold tbl
  show V m 0 main_v8 = _
  unfold V
  simp only [hostOps0, hostOps0_1, hostOps0_2, hostOps0_3, List.flatten_cons, List.flatten_nil, List.append_nil, List.cons_append, List.nil_append]
  after_results
  unfold sortedSubj perm clipped
  rfl

/-- Entry `t` of table 0 is the position the sort visits at place `t`. -/
theorem tbl0_at (t : Fin 64) : tbl m 0 (Shape.Idx.ofFin t) = BitVec.ofNat 32 (σ m t).val := by
  rw [tbl0_eq]
  exact (sort2_snd comparator_i32_i32_d0 (clipped m) (Shape.Idx.ofFin t)).trans (by rw [Shape.Idx.ofFin_zero]; rfl)

/-- Entry `t` of table 1 is the clamped id of that position. -/
theorem tbl1_at (t : Fin 64) : tbl m 1 (Shape.Idx.ofFin t) = clampW (subj m (Shape.Idx.ofFin (σ m t))) := by
  rw [tbl1_eq]
  exact take_sorted gather_S64_S64x1_S64_n_0_n_n_0_1_1 rfl rfl rfl rfl bcast_S64_S64x1_0 bcast_S_S64
    comparator_i32_i32_d0 (clipped m) (clipped m) t

theorem tbl0_lt (t : Fin 64) : (tbl m 0 (Shape.Idx.ofFin t)).toNat < 64 := by
  rw [tbl0_at, BitVec.toNat_ofNat]
  have := (σ m t).isLt
  omega

theorem tbl1_lt (t : Fin 64) : (tbl m 1 (Shape.Idx.ofFin t)).toNat < 32 := by
  rw [tbl1_at]; exact clampW_lt _

/-! ## The index maps read the tables at the grid point -/

/-- The grid point's one coordinate as a position. -/
def gi (i : grid0.Coords) : Fin 64 := ⟨(i 0).val, (i 0).isLt⟩

/-- The one index of the unit rectangle an index map reads a table through is the grid point's position. -/
theorem unit_emb (i : grid0.Coords)
    (inb : ∀ a, (![(Scalar.indexCast (BitVec.ofNat 32 (i 0).val)).toNat] : Fin 1 → Nat) a + S1.size a ≤ S64.size a)
    (h1 : 0 < S1.numel) :
    (Rect.unit (s := S64) ![(Scalar.indexCast (BitVec.ofNat 32 (i 0).val)).toNat] S1.size inb).emb (Shape.Idx.first h1)
      = Shape.Idx.ofFin (gi i) := by
  funext a
  apply Fin.ext
  have ha : a = 0 := Subsingleton.elim _ _
  subst ha
  show (BitVec.ofNat 32 (i 0).val).toNat + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := by decide
    omega
  have hi : (i 0).val < 64 := (i 0).isLt
  rw [h0, BitVec.toNat_ofNat]
  omega

variable (pf : pre0.Contents (Elt F))

theorem transform0 (i : grid0.Coords) :
    cc0_transform_0 k0_off1_inb numel1_S1 pf i = ![(pf 0 (Shape.Idx.ofFin (gi i))).toNat, 0, 0] :=
  congrArg (fun j => (![(pf 0 j).toNat, 0, 0] : Fin 3 → Nat)) (unit_emb i (k0_off1_inb i) (numel1_S1.symm ▸ Nat.one_pos))

theorem transform1 (i : grid0.Coords) :
    cc0_transform_1 k0_off1_inb numel1_S1 pf i = ![(pf 1 (Shape.Idx.ofFin (gi i))).toNat, 0, 0] :=
  congrArg (fun j => (![(pf 1 j).toNat, 0, 0] : Fin 3 → Nat)) (unit_emb i (k0_off1_inb i) (numel1_S1.symm ▸ Nat.one_pos))

theorem transform2 (i : grid0.Coords) :
    cc0_transform_2 k0_off1_inb numel1_S1 pf i = ![(pf 0 (Shape.Idx.ofFin (gi i))).toNat, 0, 0] :=
  congrArg (fun j => (![(pf 0 j).toNat, 0, 0] : Fin 3 → Nat)) (unit_emb i (k0_off1_inb i) (numel1_S1.symm ▸ Nat.one_pos))

/-! ## The side condition -/

/-- Every block every index map names lies inside its array, for every launch memory. -/
theorem ok : Ok m := by
  show ok0 (tbl m)
  unfold ok0
  refine ⟨fun i => ⟨fun a => ?_, Or.inl rfl⟩, fun i => ⟨fun a => ?_, Or.inl rfl⟩, fun i => ⟨fun a => ?_, Or.inl rfl⟩⟩
  · rw [transform0]
    have := tbl0_lt m (gi i)
    fin_cases a <;> simp [S1x1024x1024, S64x1024x1024] <;> omega
  · rw [transform1]
    have := tbl1_lt m (gi i)
    fin_cases a <;> simp [S1x1024x1024, S32x1024x1024] <;> omega
  · rw [transform2]
    have := tbl0_lt m (gi i)
    fin_cases a <;> simp [S1x1024x1024, S64x1024x1024] <;> omega

end Cert.Kernel.Tables

end
-- ==== Proof.KernelIdealTables.lean ====
/-
  The two prefetched tables of `KernelIdeal`'s pallas_call, read off the launch memory, and the pipeline's side condition on them.

  @main clamps the 64 subject ids into 0 … 31, sorts (clamped id, position) pairs stably by the id, and hands the
  pipeline the position column (table 0) and the clamped ids taken at that column (table 1). So, with `σ` the order in
  which the sort visits the positions (a bijection of the 64 positions): entry `t` of table 0 is the word `σ t`, and entry
  `t` of table 1 is the clamped id of position `σ t`. Every index map of the call reads one of the tables at the grid point
  and puts the word on the leading axis; `σ t < 64` and a clamped id is `< 32`, so every block lies inside its array
  whatever the ids are: the side condition holds of every launch memory.
-/
import proofs.«417826_j26645977104571_2_alg».proof.Proof.Gen.KernelIdeal.Frame
import proofs.«417826_j26645977104571_2_alg».proof.Proof.SortedOrder
import Idealize.ShloMosaic.Lib.StableHlo.Run

set_option maxRecDepth 16384

noncomputable section

namespace Cert.KernelIdeal.Tables

open Cert.KernelIdeal Cert.KernelIdeal.Gen Cert.SubjectOrder
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## What @main computes before the call -/

/-- The subject ids the program is launched with (it runs on one device). -/
abbrev subj : IVec S64 32 := m (((0 : Dev nD) : Thread nD τ).loc main_arg1)

/-- The ids clamped into 0 … 31. -/
def clipped : IVec S64 32 :=
  minsi (broadcastInDim S64 ![] bcast_S_S64 (constantI S_ 32 31#32))
    (maxsi (broadcastInDim S64 ![] bcast_S_S64 (constantI S_ 32 0#32)) (subj m))

theorem clipped_apply (j : S64.Idx) : clipped m j = clampW (subj m j) := rfl

/-- The position column of the stable sort of (clamped id, position) by the id. -/
def perm : IVec S64 32 := (Host.sort2 S64 0 comparator_i32_i32_d0 (clipped m) (iotaInDim S64 32 0)).2

/-- The clamped ids taken at the position column (negative positions wrapped: there are none). -/
def sortedSubj : IVec S64 32 :=
  Host.gather gather_S64_S64x1_S64_n_0_n_n_0_1_1 (clipped m)
    (broadcastInDim S64x1 ![0] bcast_S64_S64x1_0
      (select (cmpi .slt (perm m) (broadcastInDim S64 ![] bcast_S_S64 (constantI S_ 32 0#32)))
        (addi (perm m) (broadcastInDim S64 ![] bcast_S_S64 (constantI S_ 32 64#32))) (perm m)))

/-- The order in which the sort visits the 64 positions. -/
def σ : Fin 64 → Fin 64 := order comparator_i32_i32_d0 (clipped m)

theorem σ_injective : Function.Injective (σ m) := order_injective _ _
theorem σ_surjective : Function.Surjective (σ m) := order_surjective _ _

/-! ## The tables are those two columns -/

theorem tbl0_eq : tbl m 0 = perm m := by
  unfold tbl
  show V m 0 main_v1 = _
  unfold V
  simp only [hostOps0, hostOps0_1, hostOps0_2, hostOps0_3, List.flatten_cons, List.flatten_nil, List.append_nil, List.cons_append, List.nil_append]
  after_results
  unfold perm clipped
  rfl

set_option maxHeartbeats 2000000 in
theorem tbl1_eq : tbl m 1 = sortedSubj m := by
  unfold tbl
  show V m 0 main_v8 = _
  unfold V
  simp only [hostOps0, hostOps0_1, hostOps0_2, hostOps0_3, List.flatten_cons, List.flatten_nil, List.append_nil, List.cons_append, List.nil_append]
  after_results
  unfold sortedSubj perm clipped
  rfl

/-- Entry `t` of table 0 is the position the sort visits at place `t`. -/
theorem tbl0_at (t : Fin 64) : tbl m 0 (Shape.Idx.ofFin t) = BitVec.ofNat 32 (σ m t).val := by
  rw [tbl0_eq]
  exact (sort2_snd comparator_i32_i32_d0 (clipped m) (Shape.Idx.ofFin t)).trans (by rw [Shape.Idx.ofFin_zero]; rfl)

/-- Entry `t` of table 1 is the clamped id of that position. -/
theorem tbl1_at (t : Fin 64) : tbl m 1 (Shape.Idx.ofFin t) = clampW (subj m (Shape.Idx.ofFin (σ m t))) := by
  rw [tbl1_eq]
  exact take_sorted gather_S64_S64x1_S64_n_0_n_n_0_1_1 rfl rfl rfl rfl bcast_S64_S64x1_0 bcast_S_S64
    comparator_i32_i32_d0 (clipped m) (clipped m) t

theorem tbl0_lt (t : Fin 64) : (tbl m 0 (Shape.Idx.ofFin t)).toNat < 64 := by
  rw [tbl0_at, BitVec.toNat_ofNat]
  have := (σ m t).isLt
  omega

theorem tbl1_lt (t : Fin 64) : (tbl m 1 (Shape.Idx.ofFin t)).toNat < 32 := by
  rw [tbl1_at]; exact clampW_lt _

/-! ## The index maps read the tables at the grid point -/

/-- The grid point's one coordinate as a position. -/
def gi (i : grid0.Coords) : Fin 64 := ⟨(i 0).val, (i 0).isLt⟩

/-- The one index of the unit rectangle an index map reads a table through is the grid point's position. -/
theorem unit_emb (i : grid0.Coords)
    (inb : ∀ a, (![(Scalar.indexCast (BitVec.ofNat 32 (i 0).val)).toNat] : Fin 1 → Nat) a + S1.size a ≤ S64.size a)
    (h1 : 0 < S1.numel) :
    (Rect.unit (s := S64) ![(Scalar.indexCast (BitVec.ofNat 32 (i 0).val)).toNat] S1.size inb).emb (Shape.Idx.first h1)
      = Shape.Idx.ofFin (gi i) := by
  funext a
  apply Fin.ext
  have ha : a = 0 := Subsingleton.elim _ _
  subst ha
  show (BitVec.ofNat 32 (i 0).val).toNat + 1 * (Shape.Idx.first h1 (0 : Fin 1)).val = (i 0).val
  have h0 : (Shape.Idx.first h1 (0 : Fin 1)).val = 0 := by
    have := (Shape.Idx.first h1 (0 : Fin 1)).isLt
    have e : S1.size (0 : Fin 1) = 1 := by decide
    omega
  have hi : (i 0).val < 64 := (i 0).isLt
  rw [h0, BitVec.toNat_ofNat]
  omega

variable (pf : pre0.Contents (Elt F))

theorem transform0 (i : grid0.Coords) :
    cc0_transform_0 k0_off1_inb numel1_S1 pf i = ![(pf 0 (Shape.Idx.ofFin (gi i))).toNat, 0, 0] :=
  congrArg (fun j => (![(pf 0 j).toNat, 0, 0] : Fin 3 → Nat)) (unit_emb i (k0_off1_inb i) (numel1_S1.symm ▸ Nat.one_pos))

theorem transform1 (i : grid0.Coords) :
    cc0_transform_1 k0_off1_inb numel1_S1 pf i = ![(pf 1 (Shape.Idx.ofFin (gi i))).toNat, 0, 0] :=
  congrArg (fun j => (![(pf 1 j).toNat, 0, 0] : Fin 3 → Nat)) (unit_emb i (k0_off1_inb i) (numel1_S1.symm ▸ Nat.one_pos))

theorem transform2 (i : grid0.Coords) :
    cc0_transform_2 k0_off1_inb numel1_S1 pf i = ![(pf 0 (Shape.Idx.ofFin (gi i))).toNat, 0, 0] :=
  congrArg (fun j => (![(pf 0 j).toNat, 0, 0] : Fin 3 → Nat)) (unit_emb i (k0_off1_inb i) (numel1_S1.symm ▸ Nat.one_pos))

/-! ## The side condition -/

/-- Every block every index map names lies inside its array, for every launch memory. -/
theorem ok : Ok m := by
  show ok0 (tbl m)
  unfold ok0
  refine ⟨fun i => ⟨fun a => ?_, Or.inl rfl⟩, fun i => ⟨fun a => ?_, Or.inl rfl⟩, fun i => ⟨fun a => ?_, Or.inl rfl⟩⟩
  · rw [transform0]
    have := tbl0_lt m (gi i)
    fin_cases a <;> simp [S1x1024x1024, S64x1024x1024] <;> omega
  · rw [transform1]
    have := tbl1_lt m (gi i)
    fin_cases a <;> simp [S1x1024x1024, S32x1024x1024] <;> omega
  · rw [transform2]
    have := tbl0_lt m (gi i)
    fin_cases a <;> simp [S1x1024x1024, S64x1024x1024] <;> omega

end Cert.KernelIdeal.Tables

end
-- ==== Proof.KernelIdealBlocks.lean ====
/-
  The blocks of `KernelIdeal`'s three windows, at any admissible contents of the prefetched tables, and what the body leaves in
  the output's staging buffer.

  Each index map puts the table's word at the grid point on the leading axis and zero on the two others, so point `t`'s
  block of an array is the [1024, 1024] slice the word names. The output window's block index changes from each point to
  the next when the words of table 0 are pairwise distinct, and then every point's block is written back.
-/
import proofs.«417826_j26645977104571_2_alg».proof.Proof.Gen.KernelIdeal.Frame
import proofs.«417826_j26645977104571_2_alg».proof.Proof.KernelIdealTables
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Tables Cert.SubjectOrder
open Idealize.ShloMosaic Idealize.ShloMosaic.TcCoe Idealize.SL.Sem Idealize.ShloMosaic.Tactic Idealize.ShloMosaic.ValueIdx
open Idealize.ShloMosaic.Pipeline (Dat)

/-! ## What the body leaves in the output's staging buffer -/

section anyF
variable {F : FTy → Type} [FloatOps F]

theorem hz : (![0, 0, 0] : Fin 3 → Nat) = fun _ => 0 := funext fun a => by fin_cases a <;> rfl

/-- The body's one store covers the block: the buffer ends holding the store's value, a function of the two loaded blocks. -/
theorem out_eq (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole)
    (x0 : Vec F S1x1024x1024 .f32) (x1 : Vec F S1x1024x1024 .f32) (xt0 : TbBuf0 (F := F) c tbM0_0) (xt1 : TbBuf0 (F := F) c tbM0_1) :
    out0_A_2 c i arg3 harg3 arg4 harg4 arg5 harg5 x0 x1 xt0 xt1 = k0_pay1 x0 x1 := by
  unfold out0_A_2
  rw [View.read_writes_eq_canon _ _ _ (cover0_A_2 c i arg3 harg3 arg4 harg4 arg5 harg5 x0 x1 xt0 xt1)]
  unfold kernelRun0_A
  dsimp only
  rw [View.canon_unit_zero hz]
  simp only [View.readAt_eq_ld, harg3.read_unread, harg4.read_unread, View.ld_unit_zero (S := S1x1024x1024) hz]

/-! ## The windows' blocks, at any admissible contents of the tables -/

/-- A grid point as a position. -/
def pt (t : Fin grid0.N) : Fin 64 := ⟨t.val, N_0 ▸ t.isLt⟩

theorem coords_val : ∀ t : Fin grid0.N, ((grid0.coords t) 0).val = t.val := by decide

theorem gi_coords (t : Fin grid0.N) : gi (grid0.coords t) = pt t := Fin.ext (coords_val t)

variable (a : (pcfg0 (F := F)).Adm) (pf : pre0.Contents (Elt F)) (hpf : a.1 = pf)
include hpf

theorem index0 (t : Fin (cfg0 a).N) : ((cfg0 a).win 0).index t = ![(pf 0 (Shape.Idx.ofFin (pt t))).toNat, 0, 0] := by
  subst hpf
  show cc0_transform_0 k0_off1_inb numel1_S1 a.1 (grid0.coords t) = _
  rw [transform0, gi_coords]
theorem index1 (t : Fin (cfg0 a).N) : ((cfg0 a).win 1).index t = ![(pf 1 (Shape.Idx.ofFin (pt t))).toNat, 0, 0] := by
  subst hpf
  show cc0_transform_1 k0_off1_inb numel1_S1 a.1 (grid0.coords t) = _
  rw [transform1, gi_coords]
theorem index2 (t : Fin (cfg0 a).N) : ((cfg0 a).win 2).index t = ![(pf 0 (Shape.Idx.ofFin (pt t))).toNat, 0, 0] := by
  subst hpf
  show cc0_transform_2 k0_off1_inb numel1_S1 a.1 (grid0.coords t) = _
  rw [transform2, gi_coords]

/-- Entry (u, p, q) of the `x` block at point `t` is entry (b, p, q) of `x`, `b` the word table 0 holds at `t`. -/
theorem blk0_emb (t : Fin (cfg0 a).N) (b : Fin 64) (hb : (pf 0 (Shape.Idx.ofFin (pt t))).toNat = b.val) (u : Fin 1) (p q : Fin 1024) :
    (((cfg0 a).win 0).blk t).view.emb (ix3 u p q : S1x1024x1024.Idx) = (ix3 b p q : S64x1024x1024.Idx) := by
  funext ax
  apply Fin.ext
  show ((cfg0 a).win 0).index t ax * S1x1024x1024.size ax + 1 * ((ix3 u p q : S1x1024x1024.Idx) ax).val = _
  rw [index0 a pf hpf]
  match ax with
  | ⟨0, _⟩ => show (pf 0 (Shape.Idx.ofFin (pt t))).toNat * 1 + 1 * u.val = b.val; rw [hb]; omega
  | ⟨1, _⟩ => show 0 * 1024 + 1 * p.val = p.val; omega
  | ⟨2, _⟩ => show 0 * 1024 + 1 * q.val = q.val; omega

/-- Entry (u, p, q) of the `weights` block at point `t` is entry (r, p, q) of `weights`, `r` the word table 1 holds at `t`. -/
theorem blk1_emb (t : Fin (cfg0 a).N) (r : Fin 32) (hr : (pf 1 (Shape.Idx.ofFin (pt t))).toNat = r.val) (u : Fin 1) (p q : Fin 1024) :
    (((cfg0 a).win 1).blk t).view.emb (ix3 u p q : S1x1024x1024.Idx) = (ix3 r p q : S32x1024x1024.Idx) := by
  funext ax
  apply Fin.ext
  show ((cfg0 a).win 1).index t ax * S1x1024x1024.size ax + 1 * ((ix3 u p q : S1x1024x1024.Idx) ax).val = _
  rw [index1 a pf hpf]
  match ax with
  | ⟨0, _⟩ => show (pf 1 (Shape.Idx.ofFin (pt t))).toNat * 1 + 1 * u.val = r.val; rw [hr]; omega
  | ⟨1, _⟩ => show 0 * 1024 + 1 * p.val = p.val; omega
  | ⟨2, _⟩ => show 0 * 1024 + 1 * q.val = q.val; omega

/-- The output block at point `t` is block `b` of the result array, `b` again table 0's word at `t`. -/
theorem blk2_emb (t : Fin (cfg0 a).N) (b : Fin 64) (hb : (pf 0 (Shape.Idx.ofFin (pt t))).toNat = b.val) (u : Fin 1) (p q : Fin 1024) :
    (((cfg0 a).win 2).blk t).view.emb (ix3 u p q : S1x1024x1024.Idx) = (ix3 b p q : S64x1024x1024.Idx) := by
  funext ax
  apply Fin.ext
  show ((cfg0 a).win 2).index t ax * S1x1024x1024.size ax + 1 * ((ix3 u p q : S1x1024x1024.Idx) ax).val = _
  rw [index2 a pf hpf]
  match ax with
  | ⟨0, _⟩ => show (pf 0 (Shape.Idx.ofFin (pt t))).toNat * 1 + 1 * u.val = b.val; rw [hb]; omega
  | ⟨1, _⟩ => show 0 * 1024 + 1 * p.val = p.val; omega
  | ⟨2, _⟩ => show 0 * 1024 + 1 * q.val = q.val; omega

/-- Where table 0's words are pairwise distinct, every point writes its output block back. -/
theorem flush2 (hinj : Function.Injective fun k : Fin 64 => (pf 0 (Shape.Idx.ofFin k)).toNat) (t : Fin (cfg0 a).N) :
    ((cfg0 a).win 2).flush t = true := by
  have ht : t.val < 64 := N_0 ▸ t.isLt
  have hN : (cfg0 a).grid.N = 64 := N_0
  unfold Pipeline.Window.flush
  rw [show ((cfg0 a).win 2).isOut = true from rfl, Bool.true_and, Bool.or_eq_true, decide_eq_true_eq, decide_eq_true_eq]
  by_cases h : t.val + 1 = 64
  · exact Or.inl (h.trans hN.symm)
  · have h1 : t.val + 1 < (cfg0 a).grid.N := lt_of_lt_of_eq (by omega : t.val + 1 < 64) hN.symm
    refine Or.inr ⟨h1, fun e => ?_⟩
    rw [index2 a pf hpf, index2 a pf hpf] at e
    have e0 : (pf 0 (Shape.Idx.ofFin (pt ⟨t.val + 1, h1⟩))).toNat = (pf 0 (Shape.Idx.ofFin (pt t))).toNat := congrFun e 0
    have := congrArg Fin.val (hinj e0)
    simp only [pt] at this
    omega

end anyF

end Cert.KernelIdeal.KValue

end
-- ==== Proof.KernelIdealPayload.lean ====
/-
  The kernel body's one store, read at an index, at the ideal instance.

  The body loads the `x` block and the `weights` block (each [1, 1024, 1024]), drops the unit axis, narrows both to
  bf16 (the identity on extended reals), contracts the LEADING axes of the two [1024, 1024] matrices into a zero
  accumulator, and puts the unit axis back. So entry (0, d, t) of what it stores is `Σ_c w[0, c, d] · x[0, c, t]`.
-/
import proofs.«417826_j26645977104571_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## Which operand entries the contraction pairs -/

theorem lhs_contr (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem lhs_kept (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem rhs_contr (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem rhs_kept (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- The product of two [1024, 1024] matrices over their leading axes, into zero, at (d, t). -/
theorem matmul_at (l r : FVec Ideal S1024x1024 .bf16) (d t : Fin 1024) :
    matmul dot_S1024x1024_S1024x1024_S1024x1024_0_0_1_1_n_n none l r (constant S1024x1024 .f32 0x00000000#32) (ix2 d t)
      = ∑ c : Fin 1024, l (ix2 c d) * r (ix2 c t) := by
  refine (Ideal.matmul_constant_zero_apply dot_S1024x1024_S1024x1024_S1024x1024_0_0_1_1_n_n none l r (ix2 d t)).trans ?_
  rw [← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 d t) ((contrEquiv1 dot_S1024x1024_S1024x1024_S1024x1024_0_0_1_1_n_n 1024 rfl rfl).symm k) = ix2 k d := funext fun a => Fin.ext (by
    match a with
    | ⟨0, _⟩ => exact (lhs_contr _ _).trans hk
    | ⟨1, _⟩ => exact lhs_kept _ _)
  have er : dot_S1024x1024_S1024x1024_S1024x1024_0_0_1_1_n_n.rhsIdx (ix2 d t) ((contrEquiv1 dot_S1024x1024_S1024x1024_S1024x1024_0_0_1_1_n_n 1024 rfl rfl).symm k) = ix2 k t := funext fun a => Fin.ext (by
    match a with
    | ⟨0, _⟩ => exact (rhs_contr _ _).trans hk
    | ⟨1, _⟩ => exact rhs_kept _ _)
  rw [el, er]

/-- THE STORED BLOCK at (u, d, t): the contraction of the two loaded blocks over their middle axis. -/
theorem pay_apply (xb wb : Vec Ideal S1x1024x1024 .f32) (u : Fin 1) (d t : Fin 1024) :
    k0_pay1 (F := Ideal) xb wb (ix3 u d t) = ∑ c : Fin 1024, wb (ix3 (0 : Fin 1) c d) * xb (ix3 (0 : Fin 1) c t) := by
  unfold k0_pay1
  refine (shapeCast_ab_1ab_apply _ _ u d t).trans ?_
  refine (matmul_at _ _ d t).trans ?_
  refine Finset.sum_congr rfl fun c _ => ?_
  show shapeCast S1024x1024 wb _ (ix2 c d) * shapeCast S1024x1024 xb _ (ix2 c t) = _
  rw [shapeCast_1ab_ab_apply, shapeCast_1ab_ab_apply]

end Cert.KernelIdeal.Payload

end
-- ==== Proof.Spec.lean ====
/-
  What both programs compute, as one function of the three argument arrays.

  `out[b, d, t] = Σ_c weights[row b, c, d] · x[b, c, t]`, a sum of 1024 products in the extended reals, where `row b` is
  batch `b`'s subject id clamped into 0 … 31. The kernel clamps the ids itself; the reference indexes `weights` with the
  raw ids, and for ids already in 0 … 31 (the label range) the clamp leaves them.
-/
import Idealize.ShloMosaic.PureOps.Ideal
import Idealize.ShloMosaic.Lib.ValueIdx
import proofs.«417826_j26645977104571_2_alg».proof.Proof.SortedOrder

noncomputable section

open scoped BigOperators

namespace Cert.SubjectLayer

open Idealize.ShloMosaic Idealize.ShloMosaic.ValueIdx Cert.SubjectOrder

/-- The shapes of `x` / the result, and of `weights`. -/
abbrev SX : Shape := ⟨3, ![64, 1024, 1024]⟩
abbrev SW : Shape := ⟨3, ![32, 1024, 1024]⟩

/-- The weight slice batch `b` uses: its subject id clamped into 0 … 31. -/
def row (s : IVec V64 32) (b : Fin 64) : Fin 32 := ⟨(clampW (s (Shape.Idx.ofFin b))).toNat, clampW_lt _⟩

/-- An id already in 0 … 31 names its own slice. -/
theorem row_val_of_lt (s : IVec V64 32) (b : Fin 64) (h : (s (Shape.Idx.ofFin b)).toNat < 32) :
    (row s b).val = (s (Shape.Idx.ofFin b)).toNat := by
  show (clampW _).toNat = _
  rw [clampW_of_lt _ h]

/-- The result at (b, d, t). -/
def Gat (x : SX.Idx → EReal) (s : IVec V64 32) (w : SW.Idx → EReal) (b : Fin 64) (d t : Fin 1024) : EReal :=
  ∑ c : Fin 1024, w (ix3 (row s b) c d) * x (ix3 b c t)

/-- THE RESULT ARRAY. -/
def G (x : SX.Idx → EReal) (s : IVec V64 32) (w : SW.Idx → EReal) : SX.Idx → EReal :=
  fun j => Gat x s w ⟨(j 0).val, (j 0).isLt⟩ ⟨(j 1).val, (j 1).isLt⟩ ⟨(j 2).val, (j 2).isLt⟩

theorem G_ix3 (x : SX.Idx → EReal) (s : IVec V64 32) (w : SW.Idx → EReal) (b : Fin 64) (d t : Fin 1024) :
    G x s w (ix3 b d t) = Gat x s w b d t := rfl

end Cert.SubjectLayer

end
-- ==== Proof.KernelIdealValue.lean ====
/-
  What `KernelIdeal`'s run leaves in the result array, at the ideal instance: `Cert.SubjectLayer.G` of the three arguments.

  Grid point `t` works on batch `σ t` (`σ` the order in which the sort of the clamped subject ids visits the positions):
  its `x` block and its output block are block `σ t` of their arrays, its `weights` block is the slice the clamped id of
  batch `σ t` names. The body stores the contraction of the two loaded blocks, which is block `σ t` of `G`. Consecutive
  points write different blocks (`σ` is injective), so every point's block is written back, and every batch is some
  point's (`σ` is surjective), so the written blocks cover the array.
-/
import proofs.«417826_j26645977104571_2_alg».proof.Proof.KernelIdealBlocks
import proofs.«417826_j26645977104571_2_alg».proof.Proof.KernelIdealPayload
import proofs.«417826_j26645977104571_2_alg».proof.Proof.Spec

set_option maxRecDepth 16384

noncomputable section

open scoped BigOperators

namespace Cert.KernelIdeal.KValue

open Cert.KernelIdeal Cert.KernelIdeal.Gen Cert.KernelIdeal.Tables Cert.KernelIdeal.Payload Cert.SubjectOrder Cert.SubjectLayer
open Idealize.ShloMosaic Idealize.ShloMosaic.TcCoe Idealize.SL.Sem Idealize.ShloMosaic.Tactic Idealize.ShloMosaic.ValueIdx
open Idealize.ShloMosaic.Pipeline (Dat)

/-! ## At the ideal instance: each point's block, the cover, the array -/

section ideal
variable (m : (ℓ : Loc nD τ sig) → Buf (Elt Ideal) ℓ) (ρ : Dev nD → PrngReg)

/-- The batch grid point `t` works on. -/
def batch (t : Fin grid0.N) : Fin 64 := σ m (pt t)

/-- Table 0's word at `t` is that batch, -/
theorem word0 (t : Fin grid0.N) : (tbl m 0 (Shape.Idx.ofFin (pt t))).toNat = (batch m t).val := by
  rw [tbl0_at, BitVec.toNat_ofNat]
  have := (σ m (pt t)).isLt
  unfold batch
  omega

/-- and table 1's is the weight slice of that batch. -/
theorem word1 (t : Fin grid0.N) : (tbl m 1 (Shape.Idx.ofFin (pt t))).toNat = (row (subj m) (batch m t)).val := by
  rw [tbl1_at]
  rfl

/-- Table 0's words are pairwise distinct: the sort visits every position once. -/
theorem tbl0_injective : Function.Injective fun k : Fin 64 => (tbl m 0 (Shape.Idx.ofFin k)).toNat := by
  intro k k' h
  simp only [tbl0_at, BitVec.toNat_ofNat] at h
  have h1 := (σ m k).isLt
  have h2 := (σ m k').isLt
  exact σ_injective m (Fin.ext (by omega))

/-- The `x` block at point `t` is batch `batch t` of `x`. -/
theorem xblk_apply (hO : Ok m) (c : Dev nD) (t : Fin (cfgM m hO).N) (u : Fin 1) (p q : Fin 1024) :
    iblk m hO c 0 t (ix3 u p q : S1x1024x1024.Idx) = V m c main_arg0 (ix3 (batch m t) p q : S64x1024x1024.Idx) := by
  have e := blk0_emb (adm m hO) (tbl m) rfl t (batch m t) (word0 m t) u p q
  unfold iblk
  show V m c main_arg0 ((((cfgM m hO).win 0).blk t).view.emb (ix3 u p q : S1x1024x1024.Idx)) = _
  rw [e]

/-- The `weights` block at point `t` is the slice that batch's clamped id names. -/
theorem wblk_apply (hO : Ok m) (c : Dev nD) (t : Fin (cfgM m hO).N) (u : Fin 1) (p q : Fin 1024) :
    iblk m hO c 1 t (ix3 u p q : S1x1024x1024.Idx) = V m c main_arg2 (ix3 (row (subj m) (batch m t)) p q : S32x1024x1024.Idx) := by
  have e := blk1_emb (adm m hO) (tbl m) rfl t (row (subj m) (batch m t)) (word1 m t) u p q
  unfold iblk
  show V m c main_arg2 ((((cfgM m hO).win 1).blk t).view.emb (ix3 u p q : S1x1024x1024.Idx)) = _
  rw [e]

/-- What the body leaves at point `t`: the contraction of the point's two input blocks. -/
theorem outs_eq (hO : Ok m) (c : Dev nD) (t : Fin (cfgM m hO).N) :
    outsAt0 m hO c t = k0_pay1 (F := Ideal) (iblk m hO c 0 t) (iblk m hO c 1 t) := by
  unfold outsAt0
  exact out_eq c _ _ _ _ _ _ _ _ _ _ _

/-- WHAT POINT `t` WRITES BACK is its block of `G`. -/
theorem flushed_eq (hO : Ok m) (c : Dev nD) (t : Fin (cfgM m hO).N) :
    (dats m hO 0 c).flushed 2 t
      = (((cfgM m hO).win 2).blk t).view.read (Elt Ideal) (G (V m c main_arg0) (subj m) (V m c main_arg2)) := by
  show ((cfgM m hO).win 2).cut (grid0.coords t) ((dats m hO 0 c).after 2 t) = _
  rw [after0_2]
  refine funext fun (y : S1x1024x1024.Idx) => ?_
  obtain ⟨u, d, q, rfl⟩ : ∃ (u : Fin 1) (d q : Fin 1024), y = ix3 u d q := ⟨y 0, y 1, y 2, eq_ix3 y⟩
  refine (congrFun (outs_eq m hO c t) (ix3 u d q)).trans ?_
  refine (pay_apply _ _ u d q).trans ?_
  refine Eq.trans ?_ (congrArg (G (V m c main_arg0) (subj m) (V m c main_arg2))
    (blk2_emb (adm m hO) (tbl m) rfl t (batch m t) (word0 m t) u d q)).symm
  refine Eq.trans ?_ (G_ix3 _ _ _ _ _ _).symm
  unfold Gat
  refine Finset.sum_congr rfl fun k _ => ?_
  exact congrArg₂ (· * ·) (wblk_apply m hO c t 0 k d) (xblk_apply m hO c t 0 k q)

/-- Every index of the result array is in some point's block, and that point writes it back. -/
theorem cover (hO : Ok m) (c : Dev nD) (i : S64x1024x1024.Idx) :
    ∃ t : Fin (cfgM m hO).N, ((cfgM m hO).win 2).flush t = true ∧ i ∈ (((cfgM m hO).win 2).blk t).view.set := by
  obtain ⟨b, p, q, rfl⟩ : ∃ (b : Fin 64) (p q : Fin 1024), i = ix3 b p q := ⟨i 0, i 1, i 2, eq_ix3 i⟩
  obtain ⟨k, hk⟩ := σ_surjective m b
  let t : Fin (cfgM m hO).N := ⟨k.val, lt_of_lt_of_eq k.isLt N_0.symm⟩
  have hpt : pt t = k := Fin.ext rfl
  have hb : (tbl m 0 (Shape.Idx.ofFin (pt t))).toNat = b.val := by
    rw [word0]; unfold batch; rw [hpt, hk]
  refine ⟨t, flush2 (adm m hO) (tbl m) rfl (tbl0_injective m) t, ?_⟩
  have hmem := View.emb_mem_set (((cfgM m hO).win 2).blk t).view (ix3 0 p q : S1x1024x1024.Idx)
  exact Eq.mp (congrArg (fun j => j ∈ (((cfgM m hO).win 2).blk t).view.set) (blk2_emb (adm m hO) (tbl m) rfl t b hb 0 p q)) hmem

/-- THE RESULT ARRAY after the run. -/
theorem final (hO : Ok m) (c : Dev nD) :
    (dats m hO 0 c).arrAt 2 (cfgM m hO).N = G (V m c main_arg0) (subj m) (V m c main_arg2) :=
  (dats m hO 0 c).arrAt_eq_of_cover 2 _ (fun t _ => flushed_eq m hO c t) (cover m hO c)

/-- THE RUN with its result named: every weakly fair execution ends with the result array at `G` of the arguments and
    the arguments as they were. -/
theorem run : θ_run defs (onTc (τ := τ) (main (F := Ideal))) ⟨m, fun _ => 0, ρ⟩ fun r => ∀ c : Dev nD,
      r.2.mem ((c.tc : Thread nD τ).loc main_v9)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hO := ok m
  refine (θ_run defs _ _).mono (fun r h c => ?_) (run_main m ρ hO)
  obtain rfl : c = 0 := Subsingleton.elim _ _
  refine ⟨((h 0).1 2).trans ((final m hO 0).trans ?_),
    ((h 0).1 0).trans (((dats m hO 0 0).arrAt_in 0 rfl _).trans ((A_eq m hO 0 0).trans (V_main_arg0 m 0))),
    ((h 0).2 main_arg1 (by decide : main_arg1 ∈ Pipeline.restRefs sig spec0)).trans (V_main_arg1 m 0),
    ((h 0).1 1).trans (((dats m hO 0 0).arrAt_in 1 rfl _).trans ((A_eq m hO 0 1).trans (V_main_arg2 m 0)))⟩
  rw [V_main_arg0, V_main_arg2]

end ideal

end Cert.KernelIdeal.KValue

end
-- ==== Proof.RefValue.lean ====
/-
  The reference program's result, read at one element, is the layer's result array.

  The reference gathers, for each batch `b`, the weight slice its subject id names, and contracts it with `x[b]`:
  `out[b, d, t] = Σ_c weights[subjects[b], c, d] · x[b, c, t]`. Its gather indexes axis 0 of `weights` with the id after
  the wrap of negative indices (`id < 0 ? id + 32 : id`), read signed and clamped into 0 … 31; the other two axes are
  copied whole. For an id already in 0 … 31 the wrap is not taken, the signed reading is the id and the clamp leaves it:
  the slice read is the one `row` names, and the two sums agree term by term.
-/
import proofs.«417826_j26645977104571_2_alg».proof.Proof.Gen.ReferenceIdeal.Read
import proofs.«417826_j26645977104571_2_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate
open Cert.SubjectLayer Cert.SubjectOrder

/-! ## A gather of whole slices along the first axis, read at an element -/

/-- A gather from an [N × p × q] operand at an [n × 1] column of start indices, whose first operand axis is collapsed
    and start-indexed and whose other two axes are the offset axes (slices [1 × p × q]): result element (b, c, e) is the
    operand at (the start index of row `b`, read signed and clamped into 0 … N − 1; c; e). -/
theorem gather_rows {α : Type} {N n p q w : Nat}
    (d : GatherDims ⟨3, ![N, p, q]⟩ ⟨2, ![n, 1]⟩ ⟨3, ![n, p, q]⟩)
    (hoff : d.offsetDims = [1, 2]) (hcoll : d.collapsedSliceDims = [0]) (hob : d.operandBatchingDims = [])
    (hsim : d.startIndexMap = [0]) (hivd : d.indexVectorDim = 1)
    (x : (⟨3, ![N, p, q]⟩ : Shape).Idx → α) (idx : IVec ⟨2, ![n, 1]⟩ w) (b : Fin n) (c : Fin p) (e : Fin q)
    (hN : 0 < N) :
    Host.gather d x idx (ix3 b c e) = x (ix3 ⟨min (idx (ixP b)).toInt.toNat (N - 1), by omega⟩ c e) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, h0⟩ =>
    -- the collapsed axis: the slice has size one there, and the start index is read at row `b` of the column
    have hsl : ss 0 = 1 :=
      GatherDims.slice_collapsed (s := ⟨3, ![N, p, q]⟩) ⟨[1, 2], [0], [], sb, [0], 1, ss, wf⟩ 0 (List.mem_singleton.mpr rfl)
    have hsi : GatherDims.siIdx (s := ⟨3, ![N, p, q]⟩) (si := ⟨2, ![n, 1]⟩) (t := ⟨3, ![n, p, q]⟩)
        ⟨[1, 2], [0], [], sb, [0], 1, ss, wf⟩ (ix3 b c e) (0 : Fin 1) = ixP b := by
      funext b'
      match b' with
      | ⟨0, _⟩ => exact Fin.ext rfl
      | ⟨1, _⟩ => exact Fin.ext rfl
    simp only [Fin.zero_eta, Fin.isValue, Matrix.cons_val_zero, GatherDims.operandIdx, GatherDims.start,
      List.mem_cons, List.not_mem_nil, or_false, ↓reduceDIte, List.length_cons, List.length_nil, Nat.reduceAdd,
      List.idxOf_cons_self, GatherDims.batchCoord, add_zero, GatherDims.offCoord, Shape.kept, List.append_nil, decide_not,
      List.mem_filter, List.mem_finRange, decide_true, Bool.not_true, Bool.false_eq_true, and_false]
    rw [hsl]
    exact congrArg (fun i => min (idx i).toInt.toNat (N - 1)) hsi
  | ⟨1, h1⟩ =>
    -- the first offset axis: no start, the result's second coordinate
    simp only [Fin.mk_one, Fin.isValue, Matrix.cons_val_one, Matrix.cons_val_zero, GatherDims.operandIdx,
      GatherDims.start, List.mem_cons, one_ne_zero, List.not_mem_nil, or_self, ↓reduceDIte, GatherDims.batchCoord,
      add_zero, GatherDims.offCoord, Shape.kept, List.append_nil, or_false, decide_not, List.mem_filter,
      List.mem_finRange, decide_false, Bool.not_false, and_self, zero_add]
    rfl
  | ⟨2, h2⟩ =>
    -- the second offset axis: the result's third coordinate
    simp only [Fin.reduceFinMk, Fin.isValue, Matrix.cons_val, GatherDims.operandIdx, GatherDims.start,
      List.mem_cons, Fin.reduceEq, List.not_mem_nil, or_self, ↓reduceDIte, GatherDims.batchCoord, add_zero,
      GatherDims.offCoord, Shape.kept, List.append_nil, or_false, decide_not, List.mem_filter, List.mem_finRange,
      decide_false, Bool.not_false, and_self, zero_add]
    rfl

/-! ## The start word of a batch -/

/-- A word below 32 is not negative: the wrap `v < 0 ? v + 32 : v` leaves it. -/
theorem wrap_of_lt (v : BitVec 32) (hv : v.toNat < 32) :
    Scalar.select (IntOp.cmpi .slt v 0#32) (IntOp.addi v 32#32) v = v := by
  have hvi := BitVec.toInt_eq_toNat_cond v
  have e0 : (0#32 : BitVec 32).toInt = 0 := by decide
  have hlt : v.slt 0#32 = false := by
    simp only [BitVec.slt, e0, decide_eq_false_iff_not]; omega
  have h : IntOp.cmpi .slt v 0#32 = 0#1 := by
    unfold IntOp.cmpi
    rw [hlt]; rfl
  rw [h]
  exact select_zero _ _

/-- A word below 32, read signed and clamped into 0 … 31, is its own value. -/
theorem clamp_of_lt (v : BitVec 32) (hv : v.toNat < 32) : min v.toInt.toNat (32 - 1) = v.toNat := by
  rw [toInt_eq_toNat_of_lt (by omega), Int.toNat_natCast]
  omega

/-- The start index of batch `b` is its subject id, when the id is in 0 … 31. -/
theorem start_word (s : (⟨S64, .i32⟩ : BufTy).Contents (Elt Ideal)) (b : Fin 64)
    (hb : (s (Shape.Idx.ofFin b)).toNat < 32) :
    val_main_v5 (F := Ideal) s (ixP b) = s (Shape.Idx.ofFin b) := by
  have e5 : val_main_v5 (F := Ideal) s (ixP b) = val_main_v4 (F := Ideal) s (Shape.Idx.ofFin b) :=
    bcast_col1 _ (val_main_v4 (F := Ideal) s) b
  rw [e5, val_main_v4_apply, val_main_v1_apply, val_main_v3_apply, val_main_v0_apply, val_main_v2_apply,
    val_main_c_apply, val_main_c_0_apply]
  exact wrap_of_lt _ hb

/-! ## The gathered weights at an element, and the result -/

/-- The gathered operand at (b, c, d) is `weights` at (the slice `row` names for batch `b`, c, d). -/
theorem gathered_at (s : (⟨S64, .i32⟩ : BufTy).Contents (Elt Ideal))
    (w : (⟨S32x1024x1024, .f32⟩ : BufTy).Contents (Elt Ideal)) (b : Fin 64) (c d : Fin 1024)
    (hb : (s (Shape.Idx.ofFin b)).toNat < 32) :
    val_main_v6 (F := Ideal) s w (ix3 b c d) = w (ix3 (row s b) c d) := by
  unfold val_main_v6
  rw [gather_rows _ rfl rfl rfl rfl rfl w _ b c d (by decide)]
  refine congrArg (fun r : Fin 32 => w (ix3 r c d)) (Fin.ext ?_)
  show min (val_main_v5 (F := Ideal) s (ixP b)).toInt.toNat (32 - 1) = (row s b).val
  rw [start_word s b hb, clamp_of_lt _ hb, row_val_of_lt s b hb]

/-- THE REFERENCE'S RESULT is the layer's result array, when every subject id is in 0 … 31. -/
theorem ref_is_G (x : (⟨Cert.ReferenceIdeal.S64x1024x1024, .f32⟩ : BufTy).Contents (Elt Ideal)) (s : (⟨Cert.ReferenceIdeal.S64, .i32⟩ : BufTy).Contents (Elt Ideal)) (w : (⟨Cert.ReferenceIdeal.S32x1024x1024, .f32⟩ : BufTy).Contents (Elt Ideal))
    (hs : ∀ b : Fin 64, (s (Shape.Idx.ofFin b)).toNat < 32) :
    Cert.ReferenceIdeal.Read.val_main_v7 (F := Ideal) x s w = Cert.SubjectLayer.G x s w := by
  funext j
  obtain ⟨b, d, t, rfl⟩ : ∃ (b : Fin 64) (d t : Fin 1024), j = ix3 b d t :=
    ⟨⟨(j 0).val, (j 0).isLt⟩, ⟨(j 1).val, (j 1).isLt⟩, ⟨(j 2).val, (j 2).isLt⟩, eq_ix3 j⟩
  rw [val_main_v7_apply, G_ix3]
  unfold Gat
  refine Finset.sum_congr rfl fun k _ => ?_
  have el : lidx_main_v7 (ix3 b d t) k = ix3 b k d := by
    funext a
    match a with
    | ⟨0, _⟩ => rfl
    | ⟨1, _⟩ => rfl
    | ⟨2, _⟩ => rfl
  have er : ridx_main_v7 (ix3 b d t) k = ix3 b k t := by
    funext a
    match a with
    | ⟨0, _⟩ => rfl
    | ⟨1, _⟩ => rfl
    | ⟨2, _⟩ => rfl
  rw [el, er, gathered_at s w b k d (hs b)]

end Cert.ReferenceIdeal.RefValue

end
-- ==== Proof.PreDecode.lean ====
/-
  The precondition, read back at one subject id.

  The precondition is a conjunction of three one-bit words: every element of `x` finite, every element of `weights`
  finite, and every subject id `w` with `0 ≤ w` and `w < 32` (both signed). The last is a reduction by `and` over the
  64 ids; the conjunction being 1 makes it 1, so each of its 64 operands is 1, and a word that is at least 0 and below 32
  as a signed number is below 32 as a natural number.
-/
import proofs.«417826_j26645977104571_2_alg».proof.Defs
import proofs.«417826_j26645977104571_2_alg».proof.Proof.Gen.Pre_finite_inputs
import proofs.«417826_j26645977104571_2_alg».proof.Proof.Gen.KernelIdeal
import Idealize.ShloMosaic.Lib.ReduceAll
import Idealize.ShloMosaic.Lib.StableHlo.Predicate
import Idealize.ShloMosaic.Lib.ValueIdx

noncomputable section

namespace Cert.Proof.PreDecode

open Idealize.ShloMosaic Idealize.SL.Sem
open Idealize.ShloMosaic.StableHlo.Predicate

/-- The scalar shape has one index. -/
instance : Subsingleton Cert.Pre_finite_inputs.S_.Idx := ⟨fun a b => funext fun d => d.elim0⟩

/-- A word that is at least 0 and below 32, both read signed, is below 32 as a natural number. -/
theorem toNat_lt_of_signed_range (w : BitVec 32) (h0 : IntOp.cmpi .sge w 0#32 = 1#1)
    (h1 : IntOp.cmpi .slt w 32#32 = 1#1) : w.toNat < 32 := by
  have h0' : BitVec.ofBool ((0#32 : BitVec 32).sle w) = 1#1 := h0
  have h1' : BitVec.ofBool (w.slt 32#32) = 1#1 := h1
  rw [ofBool_eq_one_iff] at h0' h1'
  have hwi := BitVec.toInt_eq_toNat_cond w
  have e0 : (0#32 : BitVec 32).toInt = 0 := by decide
  have e32 : (32#32 : BitVec 32).toInt = 32 := by decide
  simp only [BitVec.sle, BitVec.slt, e0, e32, decide_eq_true_eq] at h0' h1'
  have hw := w.isLt
  omega

/-- THE PRECONDITION DECODED at batch `b`: its subject id is in 0 … 31. -/
theorem subj_lt (m : (ℓ : Loc Cert.KernelIdeal.nD Cert.KernelIdeal.τ Cert.KernelIdeal.sig) → Buf (Elt Ideal) ℓ) (h : Cert.Pre_KernelIdeal m) (c : Dev Cert.KernelIdeal.nD) (b : Fin 64) :
    (m ((c.tc : Thread Cert.KernelIdeal.nD Cert.KernelIdeal.τ).loc Cert.KernelIdeal.main_arg1) (Shape.Idx.ofFin b)).toNat < 32 := by
  have e := congrFun (h c) ValueIdx.ix0
  -- the conjunction of the three words is 1: so is its last word, the reduction over the ids
  have e' : IntOp.andi _ (Host.reduce IntOp.andi
      (andi (cmpi .sge (m ((c.tc : Thread Cert.KernelIdeal.nD Cert.KernelIdeal.τ).loc Cert.KernelIdeal.main_arg1))
          (broadcastInDim Cert.Pre_finite_inputs.S64 ![] Cert.Pre_finite_inputs.Facts.bcast_S_S64
            (constantI Cert.Pre_finite_inputs.S_ 32 0#32)))
        (cmpi .slt (m ((c.tc : Thread Cert.KernelIdeal.nD Cert.KernelIdeal.τ).loc Cert.KernelIdeal.main_arg1))
          (broadcastInDim Cert.Pre_finite_inputs.S64 ![] Cert.Pre_finite_inputs.Facts.bcast_S_S64
            (constantI Cert.Pre_finite_inputs.S_ 32 32#32))))
      (constantI Cert.Pre_finite_inputs.S_ 1 1#1) Cert.Pre_finite_inputs.Facts.reducesTo_S64_S_d0
      Cert.Pre_finite_inputs.Facts.h_S_ ValueIdx.ix0) = 1#1 := e
  have hall := (IntOp.andi_eq_one.1 e').2
  -- every operand of the reduction is 1: at batch `b`, both comparisons hold
  have hb := Host.reduce_andi_all _ _ _ _ _ hall (Shape.Idx.ofFin b)
  have hb' : IntOp.andi
      (IntOp.cmpi .sge (m ((c.tc : Thread Cert.KernelIdeal.nD Cert.KernelIdeal.τ).loc Cert.KernelIdeal.main_arg1) (Shape.Idx.ofFin b)) 0#32)
      (IntOp.cmpi .slt (m ((c.tc : Thread Cert.KernelIdeal.nD Cert.KernelIdeal.τ).loc Cert.KernelIdeal.main_arg1) (Shape.Idx.ofFin b)) 32#32)
      = 1#1 := hb
  obtain ⟨h0, h1⟩ := IntOp.andi_eq_one.1 hb'
  exact toNat_lt_of_signed_range _ h0 h1

end Cert.Proof.PreDecode

end
-- ==== Proof.lean ====
/-
  The certificate of the subject layer: a Pallas kernel that, for each of 64 batches, contracts the batch's [1024, 1024]
  slice of `x` with the [1024, 1024] weight matrix its subject id selects, against jnp's `weights[subjects]` followed by
  `einsum('bct,bcd->bdt')`.

  The mathematics. Both programs compute `out[b, d, t] = Σ_c weights[id b, c, d] · x[b, c, t]` (`Cert.SubjectLayer.G`,
  Proof/Spec.lean), the same 1024 products summed, so no law of the extended reals beyond the sum itself is used and
  finiteness of the inputs plays no part. The kernel clamps the ids into 0 … 31 and visits the batches in the order a
  stable sort of the clamped ids gives (so that equal ids are neighbours); the order is a bijection of the batches
  (Proof/SortedOrder.lean), every block it names lies inside its array whatever the ids (Proof/KernelTables.lean,
  Proof/KernelIdealTables.lean: the two frames), every grid point writes its batch's block of `G`, and the blocks cover
  the result (Proof/KernelIdealValue.lean). The reference reads `weights` at the raw id, wrapped when negative and
  clamped by the gather; for ids in the label range 0 … 31, which the precondition states, wrap and clamp leave the id
  (Proof/RefValue.lean, Proof/PreDecode.lean). The idealization rewrote nothing, so `preserves` is `True`.
-/
import proofs.«417826_j26645977104571_2_alg».proof.Defs
import proofs.«417826_j26645977104571_2_alg».proof.Proof.Gen.Kernel
import proofs.«417826_j26645977104571_2_alg».proof.Proof.Gen.Kernel.Skeleton
import proofs.«417826_j26645977104571_2_alg».proof.Proof.Gen.Kernel.Launch
import proofs.«417826_j26645977104571_2_alg».proof.Proof.Gen.Kernel.Points
import proofs.«417826_j26645977104571_2_alg».proof.Proof.Gen.Kernel.Frame
import proofs.«417826_j26645977104571_2_alg».proof.Proof.Gen.KernelIdeal
import proofs.«417826_j26645977104571_2_alg».proof.Proof.Gen.KernelIdeal.Skeleton
import proofs.«417826_j26645977104571_2_alg».proof.Proof.Gen.KernelIdeal.Launch
import proofs.«417826_j26645977104571_2_alg».proof.Proof.Gen.KernelIdeal.Points
import proofs.«417826_j26645977104571_2_alg».proof.Proof.Gen.KernelIdeal.Frame
import proofs.«417826_j26645977104571_2_alg».proof.Proof.Gen.ReferenceIdeal
import proofs.«417826_j26645977104571_2_alg».proof.Proof.Gen.Pre_finite_inputs
import proofs.«417826_j26645977104571_2_alg».proof.Proof.Gen.ReferenceIdeal.Run
import proofs.«417826_j26645977104571_2_alg».proof.Proof.Gen.ReferenceIdeal.Read
import proofs.«417826_j26645977104571_2_alg».proof.Proof.KernelTables
import proofs.«417826_j26645977104571_2_alg».proof.Proof.KernelIdealTables
import proofs.«417826_j26645977104571_2_alg».proof.Proof.KernelIdealValue
import proofs.«417826_j26645977104571_2_alg».proof.Proof.RefValue
import proofs.«417826_j26645977104571_2_alg».proof.Proof.PreDecode
import Idealize.ShloMosaic.Adequacy
import Idealize.ShloMosaic.Init

noncomputable section

namespace Cert.Proof

open Idealize.ShloMosaic Idealize.SL.Sem

/-- The kernel runs and leaves its arguments alone: every block its index maps name is inside its array. -/
theorem frame_kernel : Cert.frame_Kernel := fun m ρ _ => Cert.Kernel.Gen.frame m ρ (Cert.Kernel.Tables.ok m)

/-- The same of the kernel read at the ideal instance. -/
theorem frame_kernelIdeal : Cert.frame_KernelIdeal := fun m ρ _ => Cert.KernelIdeal.Gen.frame m ρ (Cert.KernelIdeal.Tables.ok m)

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `G` of the arguments: the kernel whatever the ids, the reference for ids
    in the label range. -/
theorem algebraic : Cert.algebraic_KernelIdeal_ReferenceIdeal := by
  intro m ρ m' ρ' hpre hagree
  refine ⟨fun c => Cert.SubjectLayer.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, (hagree c).1, (hagree c).2.1, (hagree c).2.2]
  exact Cert.ReferenceIdeal.RefValue.ref_is_G _ _ _ (fun b => Cert.Proof.PreDecode.subj_lt m hpre c b)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
